-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S8x64000 : Shape := ⟨2, ![8, 64000]⟩
abbrev S8x128x128 : Shape := ⟨3, ![8, 128, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x64000 : S_.BroadcastsInDim S8x64000 (![] : Fin 0 → Fin S8x64000.rank)
  reducesTo_S8x64000_S_d0_1 : S8x64000.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S8x64000 32) (main_arg2 : IVec S8x64000 32) (main_arg3 : FVec F S8x64000 .f32) (main_arg4 : FVec F S8x128x128 .f32) (main_arg5 : FVec F S128x128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x64000 .f32 := Host.absf main_arg3
  let main_cst_0 : FVec F S_ .f32 := constant S_ .f32 0x7F800000#32
  let main_v5 : FVec F S8x64000 .f32 := broadcastInDim S8x64000 ![] bcast_S_S8x64000 main_cst_0
  let main_v6 : IVec S8x64000 1 := cmpf .olt main_v4 main_v5
  let main_c_1 : IVec S_ 1 := constantI S_ 1 1#1
  let main_v7 : IVec S_ 1 := (fun x v => Host.reduce IntOp.andi x v reducesTo_S8x64000_S_d0_1 h_S_) main_v6 main_c_1
  let main_v8 : IVec S_ 1 := andi main_v3 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S50000x128 : Shape := ⟨2, ![50000, 128]⟩
abbrev S8x64000 : Shape := ⟨2, ![8, 64000]⟩
abbrev S8x128x128 : Shape := ⟨3, ![8, 128, 128]⟩
abbrev S128x128 : Shape := ⟨2, ![128, 128]⟩
abbrev S128 : Shape := ⟨1, ![128]⟩
abbrev S_ : Shape := ⟨0, ![]⟩
abbrev S8x64000x1 : Shape := ⟨3, ![8, 64000, 1]⟩
abbrev S8x64000x128 : Shape := ⟨3, ![8, 64000, 128]⟩
abbrev S1x8000x128 : Shape := ⟨3, ![1, 8000, 128]⟩
abbrev S1x128x128 : Shape := ⟨3, ![1, 128, 128]⟩
abbrev S1x8000x1 : Shape := ⟨3, ![1, 8000, 1]⟩
abbrev S8000x128 : Shape := ⟨2, ![8000, 128]⟩
abbrev S8000x1 : Shape := ⟨2, ![8000, 1]⟩
abbrev S512000x128 : Shape := ⟨2, ![512000, 128]⟩
abbrev S512000 : Shape := ⟨1, ![512000]⟩
abbrev S512000x1 : Shape := ⟨2, ![512000, 1]⟩
abbrev S1x128 : Shape := ⟨2, ![1, 128]⟩
abbrev S5000x128 : Shape := ⟨2, ![5000, 128]⟩

abbrev nBuf : Space → Nat
  | .hbm => 28
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S8x64000, .i32⟩
  | .hbm, ⟨2, _⟩ => ⟨S8x64000, .i32⟩
  | .hbm, ⟨3, _⟩ => ⟨S8x64000, .f32⟩
  | .hbm, ⟨4, _⟩ => ⟨S8x128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S8x64000, .i32⟩
  | .hbm, ⟨10, _⟩ => ⟨S8x64000, .i1⟩
  | .hbm, ⟨11, _⟩ => ⟨S_, .i32⟩
  | .hbm, ⟨12, _⟩ => ⟨S8x64000, .i32⟩
  | .hbm, ⟨13, _⟩ => ⟨S8x64000, .i32⟩
  | .hbm, ⟨14, _⟩ => ⟨S8x64000, .i32⟩
  | .hbm, ⟨15, _⟩ => ⟨S8x64000x1, .i32⟩
  | .hbm, ⟨16, _⟩ => ⟨S8x64000x128, .f32⟩
  | .hbm, ⟨17, _⟩ => ⟨S8x64000x1, .f32⟩
  | .hbm, ⟨18, _⟩ => ⟨S8x64000x128, .f32⟩
  | .hbm, ⟨19, _⟩ => ⟨S512000x128, .f32⟩
  | .hbm, ⟨20, _⟩ => ⟨S512000, .i32⟩
  | .hbm, ⟨21, _⟩ => ⟨S_, .f32⟩
  | .hbm, ⟨22, _⟩ => ⟨S50000x128, .f32⟩
  | .hbm, ⟨23, _⟩ => ⟨S512000x1, .i32⟩
  | .hbm, ⟨24, _⟩ => ⟨S50000x128, .f32⟩
  | .hbm, ⟨25, _⟩ => ⟨S1x128, .f32⟩
  | .hbm, ⟨26, _⟩ => ⟨S1x128, .f32⟩
  | .hbm, ⟨27, _⟩ => ⟨S50000x128, .f32⟩
  | .local _ .vmem, ⟨0, _⟩ => ⟨S1x8000x128, .f32⟩
  | .local _ .vmem, ⟨1, _⟩ => ⟨S1x8000x128, .f32⟩
  | .local _ .vmem, ⟨2, _⟩ => ⟨S1x128x128, .f32⟩
  | .local _ .vmem, ⟨3, _⟩ => ⟨S1x128x128, .f32⟩
  | .local _ .vmem, ⟨4, _⟩ => ⟨S1x8000x1, .f32⟩
  | .local _ .vmem, ⟨5, _⟩ => ⟨S1x8000x1, .f32⟩
  | .local _ .vmem, ⟨6, _⟩ => ⟨S1x8000x128, .f32⟩
  | .local _ .vmem, ⟨7, _⟩ => ⟨S1x8000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S8x64000 : S_.BroadcastsInDim S8x64000 (![] : Fin 0 → Fin S8x64000.rank)
  bcast_S8x64000_S8x64000x1_0_1 : S8x64000.BroadcastsInDim S8x64000x1 (![0, 1] : Fin 2 → Fin S8x64000x1.rank)
  inb_S1x8000x128_S1x8000x128_0_0_0 : ∀ a, (![0, 0, 0] : Fin 3 → Nat) a + S1x8000x128.size a ≤ S1x8000x128.size a
  h_S1x8000x128 : 0 < S1x8000x128.numel
  shapeCasts_S1x8000x128_S8000x128 : S1x8000x128.ShapeCasts S8000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x8000x1_S1x8000x1_0_0_0 : ∀ a, (![0, 0, 0] : Fin 3 → Nat) a + S1x8000x1.size a ≤ S1x8000x1.size a
  h_S1x8000x1 : 0 < S1x8000x1.numel
  shapeCasts_S1x8000x1_S8000x1 : S1x8000x1.ShapeCasts S8000x1
  bitsLt_bf16_f32 : FTy.bits .bf16 < FTy.bits .f32
  broadcasts_S8000x1_S8000x128 : S8000x1.Broadcasts S8000x128
  shapeCasts_S8000x128_S1x8000x128 : S8000x128.ShapeCasts S1x8000x128
  shapeCasts_S8x64000x128_S512000x128 : S8x64000x128.ShapeCasts S512000x128
  shapeCasts_S8x64000_S512000 : S8x64000.ShapeCasts S512000
  bcast_S_S50000x128 : S_.BroadcastsInDim S50000x128 (![] : Fin 0 → Fin S50000x128.rank)
  bcast_S512000_S512000x1_0 : S512000.BroadcastsInDim S512000x1 (![0] : Fin 1 → Fin S512000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  gather_S50000x128_S8x64000x1_S8x64000x128_2_0_n_n_0_2_1128_wf : GatherDims.WF S50000x128 S8x64000x1 S8x64000x128 [2] [0] [] [0] [] 2 ![1, 128]
  dot_S8000x128_S128x128_S8000x128_1_0_0_1_n_n_wf : DotDims.WF S8000x128 S128x128 S8000x128 [1] [0] [0] [1] [] []
  scatter_S50000x128_S512000x1_S512000x128_1_0_0_1_wf : ScatterDims.WF S50000x128 S512000x1 S512000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8000x128.size a ≤ S8x64000x128.size a
  hwx0_0 : ∀ i : grid0.Coords, EltTy.bits .f32 = 32 ∨ (Rect.block (s := S8x64000x128) S1x8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8000x1.size a ≤ S8x64000x1.size a
  hwx0_2 : ∀ i : grid0.Coords, EltTy.bits .f32 = 32 ∨ (Rect.block (s := S8x64000x1) S1x8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8000x128.size a ≤ S8x64000x128.size a
  hwx0_3 : ∀ i : grid0.Coords, EltTy.bits .f32 = 32 ∨ (Rect.block (s := S8x64000x128) S1x8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S8x64000x1_S8x64000x128_2_0_n_n_0_2_1128 : GatherDims S50000x128 S8x64000x1 S8x64000x128 where
  offsetDims := [2]
  collapsedSliceDims := [0]
  operandBatchingDims := []
  startIndicesBatchingDims := []
  startIndexMap := [0]
  indexVectorDim := 2
  sliceSizes := ![1, 128]
  wf := gather_S50000x128_S8x64000x1_S8x64000x128_2_0_n_n_0_2_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S512000x1_S512000x128_1_0_0_1 : ScatterDims S50000x128 S512000x1 S512000x128 where
  updateWindowDims := [1]
  insertedWindowDims := [0]
  scatterDimsToOperandDims := [0]
  indexVectorDim := 1
  wf := scatter_S50000x128_S512000x1_S512000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S1x8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S8x64000 : Shape := ⟨2, ![8, 64000]⟩
abbrev S8x128x128 : Shape := ⟨3, ![8, 128, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S8x64000x1 : Shape := ⟨3, ![8, 64000, 1]⟩
abbrev S8x64000x128 : Shape := ⟨3, ![8, 64000, 128]⟩
abbrev S512000x128 : Shape := ⟨2, ![512000, 128]⟩
abbrev S512000 : Shape := ⟨1, ![512000]⟩
abbrev S512000x1 : Shape := ⟨2, ![512000, 1]⟩

abbrev nBuf : Space → Nat
  | .hbm => 38
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S8x64000, .i32⟩
  | .hbm, ⟨2, _⟩ => ⟨S8x64000, .i32⟩
  | .hbm, ⟨3, _⟩ => ⟨S8x64000, .f32⟩
  | .hbm, ⟨4, _⟩ => ⟨S8x128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S_, .i32⟩
  | .hbm, ⟨13, _⟩ => ⟨S8x64000, .i32⟩
  | .hbm, ⟨14, _⟩ => ⟨S8x64000, .i1⟩
  | .hbm, ⟨15, _⟩ => ⟨S_, .i32⟩
  | .hbm, ⟨16, _⟩ => ⟨S8x64000, .i32⟩
  | .hbm, ⟨17, _⟩ => ⟨S8x64000, .i32⟩
  | .hbm, ⟨18, _⟩ => ⟨S8x64000, .i32⟩
  | .hbm, ⟨19, _⟩ => ⟨S8x64000x1, .i32⟩
  | .hbm, ⟨20, _⟩ => ⟨S8x64000x128, .f32⟩
  | .hbm, ⟨21, _⟩ => ⟨S8x64000x128, .f32⟩
  | .hbm, ⟨22, _⟩ => ⟨S8x64000x1, .f32⟩
  | .hbm, ⟨23, _⟩ => ⟨S8x64000x128, .f32⟩
  | .hbm, ⟨24, _⟩ => ⟨S8x64000x128, .f32⟩
  | .hbm, ⟨25, _⟩ => ⟨S512000x128, .f32⟩
  | .hbm, ⟨26, _⟩ => ⟨S512000, .i32⟩
  | .hbm, ⟨27, _⟩ => ⟨S_, .f32⟩
  | .hbm, ⟨28, _⟩ => ⟨S50000x128, .f32⟩
  | .hbm, ⟨29, _⟩ => ⟨S512000x1, .i32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S8x64000 : S_.BroadcastsInDim S8x64000 (![] : Fin 0 → Fin S8x64000.rank)
  bcast_S8x64000_S8x64000x1_0_1 : S8x64000.BroadcastsInDim S8x64000x1 (![0, 1] : Fin 2 → Fin S8x64000x1.rank)
  bcast_S8x64000x1_S8x64000x128_0_1_2 : S8x64000x1.BroadcastsInDim S8x64000x128 (![0, 1, 2] : Fin 3 → Fin S8x64000x128.rank)
  shapeCasts_S8x64000x128_S512000x128 : S8x64000x128.ShapeCasts S512000x128
  shapeCasts_S8x64000_S512000 : S8x64000.ShapeCasts S512000
  bcast_S_S50000x128 : S_.BroadcastsInDim S50000x128 (![] : Fin 0 → Fin S50000x128.rank)
  bcast_S512000_S512000x1_0 : S512000.BroadcastsInDim S512000x1 (![0] : Fin 1 → Fin S512000x1.rank)
  dot_S50000x128_S128x128_S50000x128_1_0_0_1_n_n_wf : DotDims.WF S50000x128 S128x128 S50000x128 [1] [0] [0] [1] [] []
  gather_S50000x128_S8x64000x1_S8x64000x128_2_0_n_n_0_2_1128_wf : GatherDims.WF S50000x128 S8x64000x1 S8x64000x128 [2] [0] [] [0] [] 2 ![1, 128]
  dot_S8x64000x128_S8x128x128_S8x64000x128_2_1_1_2_0_0_wf : DotDims.WF S8x64000x128 S8x128x128 S8x64000x128 [2] [1] [1] [2] [0] [0]
  scatter_S50000x128_S512000x1_S512000x128_1_0_0_1_wf : ScatterDims.WF S50000x128 S512000x1 S512000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S8x64000x1_S8x64000x128_2_0_n_n_0_2_1128 : GatherDims S50000x128 S8x64000x1 S8x64000x128 where
  offsetDims := [2]
  collapsedSliceDims := [0]
  operandBatchingDims := []
  startIndicesBatchingDims := []
  startIndexMap := [0]
  indexVectorDim := 2
  sliceSizes := ![1, 128]
  wf := gather_S50000x128_S8x64000x1_S8x64000x128_2_0_n_n_0_2_1128_wf
def dot_S8x64000x128_S8x128x128_S8x64000x128_2_1_1_2_0_0 : DotDims S8x64000x128 S8x128x128 S8x64000x128 where
  lhsContracting := [2]
  rhsContracting := [1]
  lhsNonContracting := [1]
  rhsNonContracting := [2]
  lhsBatch := [0]
  rhsBatch := [0]
  wf := dot_S8x64000x128_S8x128x128_S8x64000x128_2_1_1_2_0_0_wf
def scatter_S50000x128_S512000x1_S512000x128_1_0_0_1 : ScatterDims S50000x128 S512000x1 S512000x128 where
  updateWindowDims := [1]
  insertedWindowDims := [0]
  scatterDimsToOperandDims := [0]
  indexVectorDim := 1
  wf := scatter_S50000x128_S512000x1_S512000x128_1_0_0_1_wf

class Facts : Prop extends Facts₀ where

variable [Facts]
-- ==== Proof.KernelHost.lean ====
/-
  What each region of the kernel's program finds in its operands, as functions of the launch memory.

  Before the first region the host gathers the source rows x[src] (negative indices wrapped by the node count first)
  and lays the edge weights out as a column; the relation weights are an argument, untouched. Between the regions the
  host flattens the messages and the destination indices, scatter-adds the messages into a zero array, and lays the two
  bias vectors out as 1×128 rows; the node features and the root weights are arguments, untouched. Each statement below
  reads one operand back through the host operations that wrote it; the first region's output array is kept as the
  pipeline's own term for it and is opened elsewhere.
-/
import proofs.«159718_j69647189672496_1_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## Before the first region -/

/-- An argument is as launched when the first region is entered. -/
theorem at1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem at1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem at1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem at1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem at1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem at1_arg7 (c : Dev nD) : W1 m ρ c (Proc.devRef .tc main_arg7) = m ((c : Thread nD τ).loc main_arg7) := by
  show StableHlo.after hostOps0 (W0 m ρ c) (Proc.devRef .tc main_arg7) = _
  after_results <;> rfl

/-- The gathered source rows: row (r, e) is x[src[r, e]], a negative index first moved up by the node count. -/
theorem gathered (c : Dev nD) : V1 m ρ c main_v6
    = Host.gather gather_S50000x128_S8x64000x1_S8x64000x128_2_0_n_n_0_2_1128 (m ((c : Thread nD τ).loc main_arg0))
        (broadcastInDim S8x64000x1 ![0, 1] bcast_S8x64000_S8x64000x1_0_1
          (select (cmpi .slt (m ((c : Thread nD τ).loc main_arg1)) (broadcastInDim S8x64000 ![] bcast_S_S8x64000 (constantI S_ 32 0#32)))
            (addi (m ((c : Thread nD τ).loc main_arg1)) (broadcastInDim S8x64000 ![] bcast_S_S8x64000 (constantI S_ 32 50000#32)))
            (m ((c : Thread nD τ).loc main_arg1)))) := by
  show StableHlo.after hostOps0 (W0 m ρ c) (Proc.devRef .tc main_v6) = _
  after_results <;> rfl

/-- The edge weights as a column. -/
theorem edge_column (c : Dev nD) : V1 m ρ c main_v7
    = broadcastInDim S8x64000x1 ![0, 1] bcast_S8x64000_S8x64000x1_0_1 (m ((c : Thread nD τ).loc main_arg3)) := by
  show StableHlo.after hostOps0 (W0 m ρ c) (Proc.devRef .tc main_v7) = _
  after_results <;> rfl

/-- The relation weights are the argument. -/
theorem rel_weights (c : Dev nD) : V1 m ρ c main_arg4 = m ((c : Thread nD τ).loc main_arg4) := at1_arg4 m ρ c

/-! ## Between the regions -/

/-- A buffer the first region does not stage is, at its exit, what it was at its entry. -/
theorem at2_arg0 (c : Dev nD) : W2 m ρ c (Proc.devRef .tc main_arg0) = m ((c : Thread nD τ).loc main_arg0) :=
  (W2_of_ne m ρ c main_arg0 (by decide)).trans (at1_arg0 m ρ c)
theorem at2_arg2 (c : Dev nD) : W2 m ρ c (Proc.devRef .tc main_arg2) = m ((c : Thread nD τ).loc main_arg2) :=
  (W2_of_ne m ρ c main_arg2 (by decide)).trans (at1_arg2 m ρ c)
theorem at2_arg5 (c : Dev nD) : W2 m ρ c (Proc.devRef .tc main_arg5) = m ((c : Thread nD τ).loc main_arg5) :=
  (W2_of_ne m ρ c main_arg5 (by decide)).trans (at1_arg5 m ρ c)
theorem at2_arg6 (c : Dev nD) : W2 m ρ c (Proc.devRef .tc main_arg6) = m ((c : Thread nD τ).loc main_arg6) :=
  (W2_of_ne m ρ c main_arg6 (by decide)).trans (at1_arg6 m ρ c)
theorem at2_arg7 (c : Dev nD) : W2 m ρ c (Proc.devRef .tc main_arg7) = m ((c : Thread nD τ).loc main_arg7) :=
  (W2_of_ne m ρ c main_arg7 (by decide)).trans (at1_arg7 m ρ c)
/-- The message array at the first region's exit is what its write-backs leave. -/
theorem at2_msg (c : Dev nD) : W2 m ρ c (Proc.devRef .tc main_v8) = (dat0 (V1 m ρ) c).arrAt 3 cfg0.N := W2_arr m ρ c 3

/-- The node features and the root weights, as the second region finds them, are the arguments. -/
theorem node_features (c : Dev nD) : V3 m ρ c main_arg0 = m ((c : Thread nD τ).loc main_arg0) := by
  show StableHlo.after hostOps1 (W2 m ρ c) (Proc.devRef .tc main_arg0) = _
  after_results
  exact at2_arg0 m ρ c
theorem root_weights (c : Dev nD) : V3 m ρ c main_arg5 = m ((c : Thread nD τ).loc main_arg5) := by
  show StableHlo.after hostOps1 (W2 m ρ c) (Proc.devRef .tc main_arg5) = _
  after_results
  exact at2_arg5 m ρ c

/-- The two bias vectors as 1×128 rows. -/
theorem root_bias_row (c : Dev nD) : V3 m ρ c main_v14 = shapeCast _ (m ((c : Thread nD τ).loc main_arg6)) shapeCasts_S128_S1x128 := by
  show StableHlo.after hostOps1 (W2 m ρ c) (Proc.devRef .tc main_v14) = _
  after_results
  rw [at2_arg6]
  rfl
theorem bias_row (c : Dev nD) : V3 m ρ c main_v15 = shapeCast _ (m ((c : Thread nD τ).loc main_arg7)) shapeCasts_S128_S1x128 := by
  show StableHlo.after hostOps1 (W2 m ρ c) (Proc.devRef .tc main_v15) = _
  after_results
  rw [at2_arg7]
  rfl

/-- The aggregate: the flattened messages scatter-added, by the flattened destination indices, into a zero array. -/
theorem aggregate (c : Dev nD) : V3 m ρ c main_v13
    = Host.scatterAdd scatter_S50000x128_S512000x1_S512000x128_1_0_0_1
        (broadcastInDim S50000x128 ![] bcast_S_S50000x128 (constant (F := Ideal) S_ .f32 0x00000000#32))
        (broadcastInDim S512000x1 ![0] bcast_S512000_S512000x1_0 (shapeCast _ (m ((c : Thread nD τ).loc main_arg2)) shapeCasts_S8x64000_S512000))
        (shapeCast _ ((dat0 (V1 m ρ) c).arrAt 3 cfg0.N) shapeCasts_S8x64000x128_S512000x128) := by
  show StableHlo.after hostOps1 (W2 m ρ c) (Proc.devRef .tc main_v13) = _
  after_results
  rw [at2_arg2, at2_msg]
  rfl

end Cert.KernelIdeal.Host

end
-- ==== Proof.Spec.lean ====
/-
  The layer's two dense stages, as functions of arrays over the extended reals, index by index.

  `edgeMsg xs w ew` is the per-relation message: for relation r, edge e and output feature o,
      msg[r, e, o] = (Σ_k xs[r, e, k] · w[r, k, o]) · ew[r, e, 0],
  the gathered source row times the relation's weight matrix, scaled by the edge's weight.

  `rootCombine x rw rb agg b` is the node update: for node n and output feature o,
      out[n, o] = max ((((Σ_k x[n, k] · rw[k, o]) + rb[0, o]) + agg[n, o]) + b[0, o]) 0,
  the self-loop transform plus its bias, plus the aggregated messages, plus the layer bias, rectified. The sums
  associate exactly in this order on both programs, so no law of the extended reals beyond re-indexing is used.
-/
import Idealize.ShloMosaic.PureOps.Ideal
import Idealize.ShloMosaic.Lib.ValueIdx

noncomputable section

namespace Cert.Spec

open Idealize.ShloMosaic Idealize.ShloMosaic.ValueIdx

abbrev Edges : Shape := ⟨3, ![8, 64000, 128]⟩
abbrev RelW : Shape := ⟨3, ![8, 128, 128]⟩
abbrev EdgeCol : Shape := ⟨3, ![8, 64000, 1]⟩
abbrev Nodes : Shape := ⟨2, ![50000, 128]⟩
abbrev Square : Shape := ⟨2, ![128, 128]⟩
abbrev Row : Shape := ⟨2, ![1, 128]⟩

/-- The float zero word at the ideal instance (kept as a word: both programs rectify against the same word). -/
abbrev zeroWord : EReal := Ideal.ofBits .f32 0x00000000#32

/-- msg[r, e, o] = (Σ_k xs[r, e, k] · w[r, k, o]) · ew[r, e, 0]. -/
def edgeMsg (xs : FVec Ideal Edges .f32) (w : FVec Ideal RelW .f32) (ew : FVec Ideal EdgeCol .f32) : FVec Ideal Edges .f32 :=
  fun i => (∑ k : Fin 128, xs (ix3 (i 0) (i 1) k) * w (ix3 (i 0) k (i 2))) * ew (ix3 (i 0) (i 1) (0 : Fin 1))

/-- out[n, o] = max ((((Σ_k x[n, k] · rw[k, o]) + rb[0, o]) + agg[n, o]) + b[0, o]) 0. -/
def rootCombine (x : FVec Ideal Nodes .f32) (rw : FVec Ideal Square .f32) (rb : FVec Ideal Row .f32)
    (agg : FVec Ideal Nodes .f32) (b : FVec Ideal Row .f32) : FVec Ideal Nodes .f32 :=
  fun i => max ((((∑ k : Fin 128, x (ix2 (i 0) k) * rw (ix2 k (i 1))) + rb (ix2 (0 : Fin 1) (i 1))) + agg i)
    + b (ix2 (0 : Fin 1) (i 1))) zeroWord

end Cert.Spec

end
-- ==== Proof.KernelResult.lean ====
/-
  The layer as ONE function of its eight arguments, in the shape the kernel's program computes it: the two dense stages
  are the index-by-index functions of Spec.lean; the gather of source rows, the flattening and the scatter-add by
  destination are the host's own operations, applied but never opened.
-/
import proofs.«159718_j69647189672496_1_alg».proof.KernelIdeal
import proofs.«159718_j69647189672496_1_alg».proof.Proof.Gen.KernelIdeal
import proofs.«159718_j69647189672496_1_alg».proof.Proof.Spec
import Idealize.ShloMosaic.PureOps.Ideal

noncomputable section

namespace Cert.KernelIdeal.Value

open Cert.KernelIdeal Cert.KernelIdeal.Gen
open Idealize.ShloMosaic Idealize.ShloMosaic.TcCoe Idealize.SL.Sem

/-- The layer as the kernel's program computes it, a function of the eight arguments: gather the source rows (negative
    indices wrapped), form the edge messages, flatten and scatter-add them by destination into a zero array, and combine
    with the root transform and the two bias rows under the rectifier. Gather and scatter-add stay the host's own
    operations. -/
def result (x : (⟨S50000x128, .f32⟩ : BufTy).Contents (Elt Ideal)) (src dst : (⟨S8x64000, .i32⟩ : BufTy).Contents (Elt Ideal))
    (ew : (⟨S8x64000, .f32⟩ : BufTy).Contents (Elt Ideal)) (w : (⟨S8x128x128, .f32⟩ : BufTy).Contents (Elt Ideal))
    (rw : (⟨S128x128, .f32⟩ : BufTy).Contents (Elt Ideal)) (rb b : (⟨S128, .f32⟩ : BufTy).Contents (Elt Ideal)) :
    (⟨S50000x128, .f32⟩ : BufTy).Contents (Elt Ideal) :=
  Cert.Spec.rootCombine x rw (shapeCast _ rb shapeCasts_S128_S1x128)
    (Host.scatterAdd scatter_S50000x128_S512000x1_S512000x128_1_0_0_1
      (broadcastInDim S50000x128 ![] bcast_S_S50000x128 (constant (F := Ideal) S_ .f32 0x00000000#32))
      (broadcastInDim S512000x1 ![0] bcast_S512000_S512000x1_0 (shapeCast _ dst shapeCasts_S8x64000_S512000))
      (shapeCast _
        (Cert.Spec.edgeMsg
          (Host.gather gather_S50000x128_S8x64000x1_S8x64000x128_2_0_n_n_0_2_1128 x
            (broadcastInDim S8x64000x1 ![0, 1] bcast_S8x64000_S8x64000x1_0_1
              (select (cmpi .slt src (broadcastInDim S8x64000 ![] bcast_S_S8x64000 (constantI S_ 32 0#32)))
                (addi src (broadcastInDim S8x64000 ![] bcast_S_S8x64000 (constantI S_ 32 50000#32))) src)))
          w (broadcastInDim S8x64000x1 ![0, 1] bcast_S8x64000_S8x64000x1_0_1 ew))
        shapeCasts_S8x64000x128_S512000x128))
    (shapeCast _ b shapeCasts_S128_S1x128)

end Cert.KernelIdeal.Value

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Region0Value.lean ====
/-
  The first dense stage of the layer, read off the blocks its grid writes back.

  The region runs over the 8 × 8 grid of pairs (relation `r`, edge block `e`). At a point it holds the block of
  8000 gathered source rows `xs[r, 8000·e + p, ·]`, the relation's 128 × 128 weight matrix `w[r, ·, ·]` and the
  column of the block's 8000 edge weights `ew[r, 8000·e + p, 0]`, and it writes back the block

      out[0, p, q] = (Σ_k xs[r, 8000·e + p, k] · w[r, k, q]) · ew[r, 8000·e + p, 0].

  Three steps. First the body's result at one entry is that sum times that weight: over the extended reals the change
  of float format is the identity, a product accumulated into zero is the plain sum over the shared axis, and the
  leading unit axis of each block only relabels entries. Second, the blocks' places in the arrays: the index maps are
  compared once over the 64 grid points, so an entry of an input block sits in its array exactly where the output
  entry's relation and edge say. Third, the 64 output blocks tile the message array — edge `e'` of relation `r` lies
  in block `(r, e' / 8000)` — so the array after the region is the per-relation message function at every index.
-/
import proofs.«159718_j69647189672496_1_alg».proof.Proof.Gen.KernelIdeal.Frame
import proofs.«159718_j69647189672496_1_alg».proof.Proof.Spec
import proofs.«159718_j69647189672496_1_alg».proof.Proof.LibRowBlock
import Idealize.ShloMosaic.Lib.ValueLayout
import Idealize.ShloMosaic.Lib.Pipeline.Value

set_option maxRecDepth 16384
noncomputable section
namespace Cert.KernelIdeal.Region0
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- A column `[a, 1]` broadcast along the second axis to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The generated dimension numbers of the block product are those of a plain product `[8000, 128] × [128, 128]`. -/
theorem plain_block_dot : Cert.RowBlock.IsRows.Plain dot_S8000x128_S128x128_S8000x128_1_0_0_1_n_n 1 0 0 1 :=
  ⟨rfl, rfl, rfl, rfl, rfl, rfl⟩

/-- THE BODY'S RESULT AT AN ENTRY: row `p` of the block of gathered rows against column `q` of the relation's weight
    matrix, summed over the 128 input features, times the edge weight of row `p`. The change of float format is the
    identity on extended reals, the product accumulates into zero, and the leading unit axis of every block is only
    a relabelling of the entries. -/
theorem pay_apply (x0 : Vec Ideal S1x8000x128 .f32) (x1 : Vec Ideal S1x128x128 .f32) (x2 : Vec Ideal S1x8000x1 .f32)
    (u : Fin 1) (p : Fin 8000) (q : Fin 128) :
    Gen.k0_pay1 x0 x1 x2 (ix3 u p q)
      = (∑ k : Fin 128, x0 (ix3 (0 : Fin 1) p k) * x1 (ix3 (0 : Fin 1) k q)) * x2 (ix3 (0 : Fin 1) p (0 : Fin 1)) := by
  unfold Gen.k0_pay1
  rw [shapeCast_ab_1ab_apply, mulf_apply, broadcastTo_a1_ab_apply, shapeCast_1ab_ab_apply]
  simp only [matmul]
  rw [Ideal.matmul_constant_zero_apply, Cert.RowBlock.IsRows.dot_plain_sum _ plain_block_dot]
  refine congrArg (· * _) (Finset.sum_congr rfl fun k _ => ?_)
  rw [truncf_apply, truncf_apply, shapeCast_1ab_ab_apply, shapeCast_1ab_ab_apply]

/-! ## From blocks to the array -/

variable (V : (c : Dev nD) → (b : Ref sig .tc) → Buf (Elt Ideal) ((c : Thread nD τ).loc b))

theorem zero_offsets : (![0, 0, 0] : Fin 3 → Nat) = fun _ => 0 := funext fun a => by fin_cases a <;> rfl

/-- The printed index maps, decided over the 64 grid points `(r, e)`: the gathered rows and the edge weights move with the
    output on the relation axis and the edge-block axis and stay at block 0 on the last; the weight matrix moves
    with the output on the relation axis only; the output's block indices stay in their ranges. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = win0_3.index t (1 : Fin 3)
    ∧ win0_2.index t (2 : Fin 3) = 0
    ∧ win0_3.index t (0 : Fin 3) ≤ 7
    ∧ win0_3.index t (1 : Fin 3) ≤ 7
    ∧ win0_3.index t (2 : Fin 3) = 0 :=
  (by decide +kernel : ∀ t : Fin grid0.N, _)

/-- Every pair (relation, edge block) is SOME grid point's output block. -/
theorem idx_onto : ∀ (r : Fin 8) (e : Fin 8), ∃ t : Fin cfg0.N, win0_3.index t = ![r.val, e.val, 0] :=
  (by decide +kernel : ∀ (r : Fin 8) (e : Fin 8), ∃ t : Fin grid0.N, win0_3.index t = ![r.val, e.val, 0])

/-- Where entry `(u, p, q)` of point `t`'s output block sits in the message array. -/
abbrev outIdx (t : Fin cfg0.N) (u : Fin 1) (p : Fin 8000) (q : Fin 128) : S8x64000x128.Idx :=
  ((cfg0.win 3).blk t).view.emb (ix3 u p q)

/-- Entry `(0, p, k)` of the block of gathered rows sits at the output entry's relation and edge, feature `k`. -/
theorem emb_rows (t : Fin cfg0.N) (u : Fin 1) (p : Fin 8000) (q k : Fin 128) :
    (((cfg0.win 0).blk t).view.emb (ix3 (0 : Fin 1) p k) : S8x64000x128.Idx)
      = ix3 (outIdx t u p q 0) (outIdx t u p q 1) k := by
  obtain ⟨e00, e01, e02, e10, e11, e12, e20, e21, e22, b0, b1, b2⟩ := idx_facts t
  have hu := u.isLt
  funext a; apply Fin.ext
  match a with
  | ⟨0, _⟩ => show win0_0.index t (0 : Fin 3) * 1 + 1 * (0 : Fin 1).val = win0_3.index t (0 : Fin 3) * 1 + 1 * u.val; omega
  | ⟨1, _⟩ => show win0_0.index t (1 : Fin 3) * 8000 + 1 * p.val = win0_3.index t (1 : Fin 3) * 8000 + 1 * p.val; omega
  | ⟨2, _⟩ => show win0_0.index t (2 : Fin 3) * 128 + 1 * k.val = k.val; omega

/-- Entry `(0, k, q)` of the weight block sits at the output entry's relation, row `k`, and the output entry's feature. -/
theorem emb_weights (t : Fin cfg0.N) (u : Fin 1) (p : Fin 8000) (q k : Fin 128) :
    (((cfg0.win 1).blk t).view.emb (ix3 (0 : Fin 1) k q) : S8x128x128.Idx)
      = ix3 (outIdx t u p q 0) k (outIdx t u p q 2) := by
  obtain ⟨e00, e01, e02, e10, e11, e12, e20, e21, e22, b0, b1, b2⟩ := idx_facts t
  have hu := u.isLt
  funext a; apply Fin.ext
  match a with
  | ⟨0, _⟩ => show win0_1.index t (0 : Fin 3) * 1 + 1 * (0 : Fin 1).val = win0_3.index t (0 : Fin 3) * 1 + 1 * u.val; omega
  | ⟨1, _⟩ => show win0_1.index t (1 : Fin 3) * 128 + 1 * k.val = k.val; omega
  | ⟨2, _⟩ => show win0_1.index t (2 : Fin 3) * 128 + 1 * q.val = win0_3.index t (2 : Fin 3) * 128 + 1 * q.val; omega

/-- Entry `(0, p, 0)` of the edge-weight block sits at the output entry's relation and edge. -/
theorem emb_col (t : Fin cfg0.N) (u : Fin 1) (p : Fin 8000) (q : Fin 128) :
    (((cfg0.win 2).blk t).view.emb (ix3 (0 : Fin 1) p (0 : Fin 1)) : S8x64000x1.Idx)
      = ix3 (outIdx t u p q 0) (outIdx t u p q 1) (0 : Fin 1) := by
  obtain ⟨e00, e01, e02, e10, e11, e12, e20, e21, e22, b0, b1, b2⟩ := idx_facts t
  have hu := u.isLt
  funext a; apply Fin.ext
  match a with
  | ⟨0, _⟩ => show win0_2.index t (0 : Fin 3) * 1 + 1 * (0 : Fin 1).val = win0_3.index t (0 : Fin 3) * 1 + 1 * u.val; omega
  | ⟨1, _⟩ => show win0_2.index t (1 : Fin 3) * 8000 + 1 * p.val = win0_3.index t (1 : Fin 3) * 8000 + 1 * p.val; omega
  | ⟨2, _⟩ => show win0_2.index t (2 : Fin 3) * 1 + 1 * (0 : Fin 1).val = (0 : Fin 1).val; omega

/-- The three input blocks at point `t`, read at the entries the body's result at `(u, p, q)` uses, are the arrays'
    entries at the output entry's relation and edge. -/
theorem read_rows (c : Dev nD) (t : Fin cfg0.N) (u : Fin 1) (p : Fin 8000) (q k : Fin 128) :
    Gen.iblk0 V c 0 t (ix3 (0 : Fin 1) p k) = V c main_v6 (ix3 (outIdx t u p q 0) (outIdx t u p q 1) k) := by
  show V c main_v6 (((cfg0.win 0).blk t).view.emb (ix3 (0 : Fin 1) p k)) = _
  exact congrArg (V c main_v6) (emb_rows t u p q k)

theorem read_weights (c : Dev nD) (t : Fin cfg0.N) (u : Fin 1) (p : Fin 8000) (q k : Fin 128) :
    Gen.iblk0 V c 1 t (ix3 (0 : Fin 1) k q) = V c main_arg4 (ix3 (outIdx t u p q 0) k (outIdx t u p q 2)) := by
  show V c main_arg4 (((cfg0.win 1).blk t).view.emb (ix3 (0 : Fin 1) k q)) = _
  exact congrArg (V c main_arg4) (emb_weights t u p q k)

theorem read_col (c : Dev nD) (t : Fin cfg0.N) (u : Fin 1) (p : Fin 8000) (q : Fin 128) :
    Gen.iblk0 V c 2 t (ix3 (0 : Fin 1) p (0 : Fin 1)) = V c main_v7 (ix3 (outIdx t u p q 0) (outIdx t u p q 1) (0 : Fin 1)) := by
  show V c main_v7 (((cfg0.win 2).blk t).view.emb (ix3 (0 : Fin 1) p (0 : Fin 1))) = _
  exact congrArg (V c main_v7) (emb_col t u p q)

/-- WHAT POINT `t` WRITES BACK is block `t` of the per-relation messages of the arrays as the region finds them. -/
theorem flushed_eq (c : Dev nD) (t : Fin cfg0.N) :
    (Gen.dat0 (F := Ideal) V c).flushed 3 t
      = ((cfg0.win 3).blk t).view.read (Elt Ideal) (Cert.Spec.edgeMsg (V c main_v6) (V c main_arg4) (V c main_v7)) := by
  show (cfg0.win 3).cut (grid0.coords t) ((Gen.dat0 (F := Ideal) V c).after 3 t) = _
  rw [Gen.after0_3]
  unfold Gen.out0_3
  rw [View.canon_unit_zero zero_offsets]
  simp only [View.ld_unit_zero (S := S1x8000x128) zero_offsets, View.ld_unit_zero (S := S1x128x128) zero_offsets,
    View.ld_unit_zero (S := S1x8000x1) zero_offsets]
  funext j
  obtain ⟨u, p, q, rfl⟩ : ∃ (u : Fin 1) (p : Fin 8000) (q : Fin 128), j = ix3 u p q := ⟨j 0, j 1, j 2, eq_ix3 j⟩
  show Gen.k0_pay1 (Gen.iblk0 V c 0 t) (Gen.iblk0 V c 1 t) (Gen.iblk0 V c 2 t) (ix3 u p q)
    = Cert.Spec.edgeMsg (V c main_v6) (V c main_arg4) (V c main_v7) (outIdx t u p q)
  refine (pay_apply _ _ _ u p q).trans ?_
  unfold Cert.Spec.edgeMsg
  rw [read_col V c t u p q]
  refine congrArg (· * _) (Finset.sum_congr rfl fun k _ => ?_)
  rw [read_rows V c t u p q k, read_weights V c t u p q k]

/-- An index of the message array is in point `t`'s block iff each coordinate is in the block's range on its axis. -/
theorem mem_blk (t : Fin cfg0.N) (i : S8x64000x128.Idx) :
    i ∈ ((cfg0.win 3).blk t).view.set ↔ ∀ a : Fin 3, win0_3.index t a * S1x8000x128.size a ≤ (i a).val
      ∧ (i a).val < win0_3.index t a * S1x8000x128.size a + S1x8000x128.size a := by
  show i ∈ ((View.whole main_v8).slice (win0_3.rect t)).set ↔ _
  rw [View.set_slice_whole, Rect.mem_set_unit]
  exact Iff.rfl

/-- EVERY INDEX IS COVERED: edge `e` of relation `r` lies in the block of the point whose output block is
    `(r, e / 8000)`, and that point writes back. -/
theorem cover (i : S8x64000x128.Idx) :
    ∃ t : Fin cfg0.N, (cfg0.win 3).flush t = true ∧ i ∈ ((cfg0.win 3).blk t).view.set := by
  have hi0 : (i 0).val < 8 := (i 0).isLt
  have hi1 : (i 1).val < 64000 := (i 1).isLt
  have hi2 : (i 2).val < 128 := (i 2).isLt
  obtain ⟨t, ht⟩ := idx_onto ⟨(i 0).val, hi0⟩ ⟨(i 1).val / 8000, by omega⟩
  have q0 : win0_3.index t (0 : Fin 3) = (i 0).val := congrFun ht 0
  have q1 : win0_3.index t (1 : Fin 3) = (i 1).val / 8000 := congrFun ht 1
  have q2 : win0_3.index t (2 : Fin 3) = 0 := congrFun ht 2
  refine ⟨t, Gen.flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8000 ≤ (i 1).val ∧ (i 1).val < win0_3.index t (1 : Fin 3) * 8000 + 8000; omega
  | ⟨2, _⟩ => show win0_3.index t (2 : Fin 3) * 128 ≤ (i 2).val ∧ (i 2).val < win0_3.index t (2 : Fin 3) * 128 + 128; omega

/-- THE MESSAGE ARRAY after the region: the per-relation messages of the arrays the region was entered with,
    `msg[r, e, o] = (Σ_k xs[r, e, k] · w[r, k, o]) · ew[r, e, 0]`, at every index. -/
theorem final (c : Dev nD) :
    (Gen.dat0 (F := Ideal) V c).arrAt 3 cfg0.N = Cert.Spec.edgeMsg (V c main_v6) (V c main_arg4) (V c main_v7) :=
  (Gen.dat0 (F := Ideal) V c).arrAt_eq_of_cover 3 _ (fun t _ => flushed_eq V c t) cover

end Cert.KernelIdeal.Region0
end
-- ==== Proof.Region1Value.lean ====
/-
  The node update, from its ten row blocks to the whole array.

  The second stage of the layer runs over ten grid points. At point `t` it reads rows `5000·t … 5000·t + 4999` of
  the node features `x` and of the aggregated messages `agg`, the whole weight matrix `rw` and the two bias rows
  `rb`, `b`, and writes the same rows of the output:
      out[n, o] = max ((((Σ_k x[n, k] · rw[k, o]) + rb[0, o]) + agg[n, o]) + b[0, o]) 0.
  Row `n` of the result depends on row `n` of `x` and `agg` alone, so the block written at point `t` is the `t`-th
  row block of the one function `Cert.Spec.rootCombine` of the whole arrays; the ten blocks tile the 50000 rows
  (row `n` lies in block `n / 5000`), hence the array the stage leaves IS that function.

  The steps: the body's arithmetic read at one entry (`payload_apply`: the casts are to the same shape, the
  narrowing to the shorter float format is the identity on extended reals, the product into a zero accumulator is
  the plain sum over the shared axis, the bias rows are read at their one row); the printed index maps decided over
  the ten points (`index_maps`, `index_onto`); each window's block read where the whole array is read
  (`read_x`, `read_rw`, `read_rb`, `read_agg`, `read_b`, `emb_out`); what a point writes back (`flushed_eq`); the
  cover (`mem_block`, `covered`); and the array (`final`).
-/
import proofs.«159718_j69647189672496_1_alg».proof.Proof.Gen.KernelIdeal.Frame
import proofs.«159718_j69647189672496_1_alg».proof.Proof.Spec
import proofs.«159718_j69647189672496_1_alg».proof.Proof.LibRowBlock
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.Region1
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The body's arithmetic at one entry -/

/-- Entry `(p, q)` of the block the body computes: row `p` of the node block against column `q` of the weight matrix,
    plus the self-loop bias at `q`, plus the aggregated message at `(p, q)`, plus the layer bias at `q`, rectified. -/
theorem payload_apply (x0 x3 : Vec Ideal S5000x128 .f32) (x1 : Vec Ideal S128x128 .f32) (x2 x4 : Vec Ideal S1x128 .f32)
    (p : Fin 5000) (q : Fin 128) :
    Gen.k1_pay1 (F := Ideal) x0 x1 x2 x3 x4 (ix2 p q)
      = max ((((∑ k : Fin 128, x0 (ix2 p k) * x1 (ix2 k q)) + x2 (ix2 (0 : Fin 1) q)) + x3 (ix2 p q))
          + x4 (ix2 (0 : Fin 1) q)) Cert.Spec.zeroWord := by
  unfold Gen.k1_pay1
  rw [maximumf_apply, addf_apply, addf_apply, addf_apply, broadcast_apply]
  rw [broadcastTo_1b_ab_apply, broadcastTo_1b_ab_apply, shapeCast_self, shapeCast_self, shapeCast_self]
  simp only [matmul]
  rw [Ideal.matmul_constant_zero_apply]
  rw [Cert.RowBlock.IsRows.dot_plain_sum dot_S5000x128_S128x128_S5000x128_1_0_0_1_n_n ⟨rfl, rfl, rfl, rfl, rfl, rfl⟩]
  rfl

/-! ## The index maps -/

/-- The printed index maps, decided once over the ten grid points: the node-block windows (the node features,
    the aggregated messages, the output) sit at row block `t`, column block 0; the weight matrix and the two bias
    rows are whole, at block (0, 0). -/
theorem index_maps : ∀ t : Fin cfg1.N,
    win1_5.index t (0 : Fin 2) = t.val ∧ win1_5.index t (1 : Fin 2) = 0
    ∧ win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_4.index t (0 : Fin 2) = 0 ∧ win1_4.index t (1 : Fin 2) = 0 :=
  (by decide +kernel : ∀ t : Fin grid1.N, _)

/-- Every row block is some grid point's. -/
theorem index_onto : ∀ q : Fin 10, ∃ t : Fin cfg1.N, win1_5.index t = ![q.val, 0] :=
  (by decide +kernel : ∀ q : Fin 10, ∃ t : Fin grid1.N, win1_5.index t = ![q.val, 0])

/-- The body reads and writes each staging buffer whole: from offset (0, 0). -/
theorem offsets_zero : (![0, 0] : Fin 2 → Nat) = fun _ => 0 := funext fun a => by fin_cases a <;> rfl

/-! ## Each window's block, read where the whole array is read -/

variable (V : (c : Dev nD) → (b : Ref sig .tc) → Buf (Elt Ideal) ((c : Thread nD τ).loc b))

/-- Row `p` of the node-feature block at point `t` is row `5000·t + p` of the node features. -/
theorem read_x (c : Dev nD) (t : Fin cfg1.N) (p : Fin 5000) (k : Fin 128) (r : Fin 50000) (hr : r.val = t.val * 5000 + p.val) :
    Gen.iblk1 (F := Ideal) V c 0 t (ix2 p k) = V c main_arg0 (ix2 r k) := by
  obtain ⟨-, -, e0, e1, -⟩ := index_maps t
  show V c main_arg0 (((cfg1.win 0).blk t).view.emb (ix2 p k)) = V c main_arg0 (ix2 r k)
  refine congrArg (V c main_arg0) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the aggregated-message block at point `t` is row `5000·t + p` of the aggregated messages. -/
theorem read_agg (c : Dev nD) (t : Fin cfg1.N) (p : Fin 5000) (k : Fin 128) (r : Fin 50000) (hr : r.val = t.val * 5000 + p.val) :
    Gen.iblk1 (F := Ideal) V c 3 t (ix2 p k) = V c main_v13 (ix2 r k) := by
  obtain ⟨-, -, -, -, e0, e1, -⟩ := index_maps t
  show V c main_v13 (((cfg1.win 3).blk t).view.emb (ix2 p k)) = V c main_v13 (ix2 r k)
  refine congrArg (V c main_v13) ?_
  funext a; apply Fin.ext
  match a with
  | ⟨0, _⟩ => show win1_3.index t (0 : Fin 2) * 5000 + 1 * p.val = r.val; omega
  | ⟨1, _⟩ => show win1_3.index t (1 : Fin 2) * 128 + 1 * k.val = k.val; omega

/-- The weight matrix's block is the whole matrix at every point. -/
theorem read_rw (c : Dev nD) (t : Fin cfg1.N) (k q : Fin 128) :
    Gen.iblk1 (F := Ideal) V c 1 t (ix2 k q) = V c main_arg5 (ix2 k q) := by
  obtain ⟨-, -, -, -, -, -, e0, e1, -⟩ := index_maps t
  show V c main_arg5 (((cfg1.win 1).blk t).view.emb (ix2 k q)) = V c main_arg5 (ix2 k q)
  refine congrArg (V c main_arg5) ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- The self-loop bias row's block is the whole row at every point. -/
theorem read_rb (c : Dev nD) (t : Fin cfg1.N) (z : Fin 1) (q : Fin 128) :
    Gen.iblk1 (F := Ideal) V c 2 t (ix2 z q) = V c main_v14 (ix2 z q) := by
  obtain ⟨-, -, -, -, -, -, -, -, e0, e1, -⟩ := index_maps t
  show V c main_v14 (((cfg1.win 2).blk t).view.emb (ix2 z q)) = V c main_v14 (ix2 z q)
  refine congrArg (V c main_v14) ?_
  funext a; apply Fin.ext
  match a with
  | ⟨0, _⟩ => show win1_2.index t (0 : Fin 2) * 1 + 1 * z.val = z.val; omega
  | ⟨1, _⟩ => show win1_2.index t (1 : Fin 2) * 128 + 1 * q.val = q.val; omega

/-- The layer bias row's block is the whole row at every point. -/
theorem read_b (c : Dev nD) (t : Fin cfg1.N) (z : Fin 1) (q : Fin 128) :
    Gen.iblk1 (F := Ideal) V c 4 t (ix2 z q) = V c main_v15 (ix2 z q) := by
  obtain ⟨-, -, -, -, -, -, -, -, -, -, e0, e1⟩ := index_maps t
  show V c main_v15 (((cfg1.win 4).blk t).view.emb (ix2 z q)) = V c main_v15 (ix2 z q)
  refine congrArg (V c main_v15) ?_
  funext a; apply Fin.ext
  match a with
  | ⟨0, _⟩ => show win1_4.index t (0 : Fin 2) * 1 + 1 * z.val = z.val; omega
  | ⟨1, _⟩ => show win1_4.index t (1 : Fin 2) * 128 + 1 * q.val = q.val; omega

/-- Entry `(p, q)` of the output block at point `t` is entry `(5000·t + p, q)` of the output array. -/
theorem emb_out (t : Fin cfg1.N) (p : Fin 5000) (q : Fin 128) (r : Fin 50000) (hr : r.val = t.val * 5000 + p.val) :
    ((cfg1.win 5).blk t).view.emb (ix2 p q) = ix2 r q := by
  obtain ⟨e0, e1, -⟩ := index_maps t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

/-! ## What a point writes back -/

/-- WHAT POINT `t` WRITES BACK is block `t` of the node update of the arrays as the stage finds them. -/
theorem flushed_eq (c : Dev nD) (t : Fin cfg1.N) :
    (Gen.dat1 (F := Ideal) V c).flushed 5 t = ((cfg1.win 5).blk t).view.read (Elt Ideal)
      (Cert.Spec.rootCombine (V c main_arg0) (V c main_arg5) (V c main_v14) (V c main_v13) (V c main_v15)) := by
  show (cfg1.win 5).cut (grid1.coords t) ((Gen.dat1 (F := Ideal) V c).after 5 t) = _
  rw [after1_5]
  unfold out1_5
  rw [View.canon_unit_zero offsets_zero]
  simp only [View.ld_unit_zero (S := S5000x128) offsets_zero, View.ld_unit_zero (S := S128x128) offsets_zero,
    View.ld_unit_zero (S := S1x128) offsets_zero]
  funext j
  obtain ⟨p, q, rfl⟩ : ∃ (p : Fin 5000) (q : Fin 128), j = ix2 p q := ⟨j 0, j 1, eq_ix2 j⟩
  have ht : t.val < 10 := t.isLt
  have hr : (⟨t.val * 5000 + p.val, by omega⟩ : Fin 50000).val = t.val * 5000 + p.val := rfl
  show Gen.k1_pay1 (F := Ideal) (Gen.iblk1 V c 0 t) (Gen.iblk1 V c 1 t) (Gen.iblk1 V c 2 t) (Gen.iblk1 V c 3 t) (Gen.iblk1 V c 4 t) (ix2 p q)
    = Cert.Spec.rootCombine (V c main_arg0) (V c main_arg5) (V c main_v14) (V c main_v13) (V c main_v15)
        (((cfg1.win 5).blk t).view.emb (ix2 p q))
  rw [emb_out t p q _ hr]
  refine (payload_apply (Gen.iblk1 V c 0 t) (Gen.iblk1 V c 3 t) (Gen.iblk1 V c 1 t) (Gen.iblk1 V c 2 t) (Gen.iblk1 V c 4 t) p q).trans ?_
  unfold Cert.Spec.rootCombine
  simp only [read_x V c t p _ _ hr, read_agg V c t p _ _ hr, read_rw V c t, read_rb V c t, read_b V c t]

/-! ## The cover, and the array -/

/-- An index of the array is in point `t`'s block iff each coordinate is in the block's range on its axis. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v16).slice (win1_5.rect t)).set ↔ _
  rw [View.set_slice_whole, Rect.mem_set_unit]
  exact Iff.rfl

/-- Every index of the array lies in the block of the point its row block names: row `n` is in block `n / 5000`. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY the stage leaves: the node update of the arrays as the stage finds them, at every index. -/
theorem final (c : Dev nD) :
    (Gen.dat1 (F := Ideal) V c).arrAt 5 cfg1.N = Cert.Spec.rootCombine (V c main_arg0) (V c main_arg5) (V c main_v14) (V c main_v13) (V c main_v15) :=
  (Gen.dat1 (F := Ideal) V c).arrAt_eq_of_cover 5 _ (fun t _ => flushed_eq V c t) covered

end Cert.KernelIdeal.Region1
end
-- ==== Proof.KernelValue.lean ====
/-
  The kernel's program, run: its result buffer ends holding ONE function of the argument arrays.

  The launch leaves the result buffer at the last segment boundary's contents. That boundary is the second region's
  exit, where the buffer is the region's output array: `rootCombine` of the node features, the root weights, the two bias
  rows and the aggregate as that region finds them. The aggregate is the host's scatter-add of the first region's output
  array, flattened, which is `edgeMsg` of the gathered rows, the relation weights and the edge-weight column as the first
  region finds them. Reading every operand back through the host operations that wrote it gives `result`.
-/
import proofs.«159718_j69647189672496_1_alg».proof.Proof.KernelRun
import proofs.«159718_j69647189672496_1_alg».proof.Proof.KernelHost
import proofs.«159718_j69647189672496_1_alg».proof.Proof.Spec
import proofs.«159718_j69647189672496_1_alg».proof.Proof.KernelResult
import proofs.«159718_j69647189672496_1_alg».proof.Proof.Region0Value
import proofs.«159718_j69647189672496_1_alg».proof.Proof.Region1Value

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- What the result buffer holds at the last segment boundary: the second region's output array, which is `rootCombine`
    of what that region finds, the aggregate in turn holding `edgeMsg` of what the first region finds. -/
theorem boundary (c : Dev nD) : W4 m ρ c (Proc.devRef .tc main_v16)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [show W4 m ρ c (Proc.devRef .tc main_v16) = (dat1 (V3 m ρ) c).arrAt 5 cfg1.N from W4_arr m ρ c 5]
  rw [Cert.KernelIdeal.Region1.final (V3 m ρ) c, Cert.KernelIdeal.Host.node_features, Cert.KernelIdeal.Host.root_weights,
    Cert.KernelIdeal.Host.root_bias_row, Cert.KernelIdeal.Host.aggregate, Cert.KernelIdeal.Host.bias_row,
    Cert.KernelIdeal.Region0.final (V1 m ρ) c, Cert.KernelIdeal.Host.gathered, Cert.KernelIdeal.Host.rel_weights,
    Cert.KernelIdeal.Host.edge_column]
  rfl

/-- Every weakly fair execution of the kernel's program terminates without a fault, the result buffer at `result` of
    the launch contents of the arguments, the arguments unchanged. -/
theorem run : θ_run defs (onTc (τ := τ) (main (F := Ideal))) ⟨m, fun _ => 0, ρ⟩ (fun r => ∀ c : Dev nD,
      r.2.mem ((c.tc : Thread nD τ).loc main_v16)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (boundary m ρ c), (h c).2⟩) (Cert.KernelIdeal.Launched.run m ρ)

end Cert.KernelIdeal.Value

end
-- ==== Proof.RefDense.lean ====
/-
  The reference's two dense stages, read index by index at the exact instance, are the functions of Spec.lean.

  * The batched product of the gathered rows with the relation weights, times the edge weights broadcast along the
    features, is `edgeMsg`: entry (r, e, o) of the product is Σ_k xs[r, e, k] · w[r, k, o] (relation r is the batch
    axis, k the contracted one), and the broadcast reads ew[r, e, 0].
  * The root product plus the bias row, plus the aggregate, plus the layer bias row, rectified, is `rootCombine`:
    entry (n, o) of the product is Σ_k x[n, k] · rw[k, o]; each row broadcast reads its one row at column o; the
    rectifier's zero is the same float word on both sides.
  * A vector of length 128 laid out as a 1×128 row is the same row whether it is made by a reshape or by a
    broadcast along a new leading axis.

  The gathered rows `xs` and the aggregate `agg` are arbitrary here: gather and scatter-add are never opened.
-/
import proofs.«159718_j69647189672496_1_alg».proof.Proof.Gen.ReferenceIdeal.Read
import proofs.«159718_j69647189672496_1_alg».proof.Proof.Spec
import Idealize.ShloMosaic.Lib.ValueLayout

noncomputable section

namespace Cert.ReferenceIdeal.Dense

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- Entry (r, e, o) of the batched product: the sum over the contracted axis k of xs[r, e, k] · w[r, k, o]. -/
theorem batched_dot_apply (xs : FVec Ideal S8x64000x128 .f32) (w : FVec Ideal S8x128x128 .f32) (r : Fin 8) (e : Fin 64000) (o : Fin 128) :
    Host.dotGeneral dot_S8x64000x128_S8x128x128_S8x64000x128_2_1_1_2_0_0 none xs w (ix3 r e o)
      = ∑ k : Fin 128, xs (ix3 r e k) * w (ix3 r k o) := by
  simp only [Host.dotGeneral]
  rw [Ideal.dotGeneral_apply, ← Equiv.sum_comp (ValueIdx.contrEquiv1 dot_S8x64000x128_S8x128x128_S8x64000x128_2_1_1_2_0_0 128 rfl rfl).symm]
  refine Finset.sum_congr rfl fun k _ => ?_
  have hk := ValueIdx.contrEquiv1_symm_val dot_S8x64000x128_S8x128x128_S8x64000x128_2_1_1_2_0_0 128 rfl rfl k
  have el : dot_S8x64000x128_S8x128x128_S8x64000x128_2_1_1_2_0_0.lhsIdx (ix3 r e o) ((ValueIdx.contrEquiv1 dot_S8x64000x128_S8x128x128_S8x64000x128_2_1_1_2_0_0 128 rfl rfl).symm k) = ix3 r e k := funext fun a => Fin.ext (by
    match a with
    | ⟨0, _⟩ => exact lhs_main_v11_0 _ _
    | ⟨1, _⟩ => exact lhs_main_v11_1 _ _
    | ⟨2, _⟩ => exact (lhs_main_v11_2 _ _).trans hk)
  have er : dot_S8x64000x128_S8x128x128_S8x64000x128_2_1_1_2_0_0.rhsIdx (ix3 r e o) ((ValueIdx.contrEquiv1 dot_S8x64000x128_S8x128x128_S8x64000x128_2_1_1_2_0_0 128 rfl rfl).symm k) = ix3 r k o := funext fun a => Fin.ext (by
    match a with
    | ⟨0, _⟩ => exact rhs_main_v11_0 _ _
    | ⟨1, _⟩ => exact (rhs_main_v11_1 _ _).trans hk
    | ⟨2, _⟩ => exact rhs_main_v11_2 _ _)
  rw [el, er]

/-- The edge-weight column broadcast along the features reads, at (r, e, o), the column's entry (r, e, 0). -/
theorem edge_bcast_apply (ew : FVec Ideal S8x64000x1 .f32) (r : Fin 8) (e : Fin 64000) (o : Fin 128) :
    broadcastInDim S8x64000x128 ![0, 1, 2] bcast_S8x64000x1_S8x64000x128_0_1_2 ew (ix3 r e o) = ew (ix3 r e (0 : Fin 1)) :=
  broadcastInDim_apply _ bcast_S8x64000x1_S8x64000x128_0_1_2 ew (ix3 r e o) (ix3 r e (0 : Fin 1)) (fun a => match a with
    | ⟨0, _⟩ => by show r.val = if (8 : Nat) = 1 then 0 else r.val; rw [if_neg (by decide)]
    | ⟨1, _⟩ => by show e.val = if (64000 : Nat) = 1 then 0 else e.val; rw [if_neg (by decide)]
    | ⟨2, _⟩ => by show 0 = if (1 : Nat) = 1 then 0 else o.val; rw [if_pos rfl])

/-- The reference's message stage is `edgeMsg`. -/
theorem msg_eq (xs : FVec Ideal S8x64000x128 .f32) (w : FVec Ideal S8x128x128 .f32) (ew : FVec Ideal S8x64000x1 .f32) :
    mulf (Host.dotGeneral dot_S8x64000x128_S8x128x128_S8x64000x128_2_1_1_2_0_0 none xs w)
        (broadcastInDim S8x64000x128 ![0, 1, 2] bcast_S8x64000x1_S8x64000x128_0_1_2 ew)
      = Cert.Spec.edgeMsg xs w ew := by
  funext i
  obtain ⟨r, e, o, rfl⟩ : ∃ (r : Fin 8) (e : Fin 64000) (o : Fin 128), i = ix3 r e o := ⟨i 0, i 1, i 2, eq_ix3 i⟩
  rw [mulf_apply, batched_dot_apply, edge_bcast_apply]
  rfl

/-- Entry (n, o) of the root product: the sum over k of x[n, k] · rw[k, o]. -/
theorem root_dot_apply (x : FVec Ideal S50000x128 .f32) (rw : FVec Ideal S128x128 .f32) (n : Fin 50000) (o : Fin 128) :
    Host.dotGeneral dot_S50000x128_S128x128_S50000x128_1_0_0_1_n_n none x rw (ix2 n o) = ∑ k : Fin 128, x (ix2 n k) * rw (ix2 k o) := by
  have h := val_main_v0_apply x rw (ix2 n o)
  unfold val_main_v0 at h
  rw [h]
  refine Finset.sum_congr rfl fun k _ => ?_
  have el : lidx_main_v0 (ix2 n o) k = ix2 n k := funext fun a => Fin.ext (by match a with | ⟨0, _⟩ => rfl | ⟨1, _⟩ => rfl)
  have er : ridx_main_v0 (ix2 n o) k = ix2 k o := funext fun a => Fin.ext (by match a with | ⟨0, _⟩ => rfl | ⟨1, _⟩ => rfl)
  rw [el, er]

/-- A 1×128 row broadcast over the 50000 nodes reads, at (n, o), the row's entry (0, o). -/
theorem row_bcast_apply (v : FVec Ideal S1x128 .f32) (n : Fin 50000) (o : Fin 128) :
    broadcastInDim S50000x128 ![0, 1] bcast_S1x128_S50000x128_0_1 v (ix2 n o) = v (ix2 (0 : Fin 1) o) :=
  broadcastInDim_apply _ bcast_S1x128_S50000x128_0_1 v (ix2 n o) (ix2 (0 : Fin 1) o) (fun a => match a with
    | ⟨0, _⟩ => by show 0 = if (1 : Nat) = 1 then 0 else n.val; rw [if_pos rfl]
    | ⟨1, _⟩ => by show o.val = if (128 : Nat) = 1 then 0 else o.val; rw [if_neg (by decide)])

/-- The reference's node update is `rootCombine`, whatever the aggregate. -/
theorem root_eq (x : FVec Ideal S50000x128 .f32) (rw : FVec Ideal S128x128 .f32) (rb b : FVec Ideal S1x128 .f32) (agg : FVec Ideal S50000x128 .f32) :
    maximumf (addf (addf (addf (Host.dotGeneral dot_S50000x128_S128x128_S50000x128_1_0_0_1_n_n none x rw)
          (broadcastInDim S50000x128 ![0, 1] bcast_S1x128_S50000x128_0_1 rb)) agg)
        (broadcastInDim S50000x128 ![0, 1] bcast_S1x128_S50000x128_0_1 b))
      (broadcastInDim S50000x128 ![] bcast_S_S50000x128 (constant (F := Ideal) S_ .f32 0x00000000#32))
      = Cert.Spec.rootCombine x rw rb agg b := by
  funext i
  obtain ⟨n, o, rfl⟩ : ∃ (n : Fin 50000) (o : Fin 128), i = ix2 n o := ⟨i 0, i 1, eq_ix2 i⟩
  rw [maximumf_apply, addf_apply, addf_apply, addf_apply, root_dot_apply, row_bcast_apply, row_bcast_apply]
  rfl

/-- A length-128 vector as a 1×128 row: the broadcast along a new leading axis and the reshape are the same row. -/
theorem row_of_vector (v : FVec Ideal S128 .f32) (h : S128.ShapeCasts S1x128) :
    broadcastInDim S1x128 ![1] bcast_S128_S1x128_1 v = shapeCast S1x128 v h := by
  funext i
  obtain ⟨u, o, rfl⟩ : ∃ (u : Fin 1) (o : Fin 128), i = ix2 u o := ⟨i 0, i 1, eq_ix2 i⟩
  rw [shapeCast_a_1a_apply]
  exact broadcastInDim_apply _ bcast_S128_S1x128_1 v (ix2 u o) (ix1 o) (fun a => match a with
    | ⟨0, _⟩ => by show o.val = if (128 : Nat) = 1 then 0 else o.val; rw [if_neg (by decide)])

end Cert.ReferenceIdeal.Dense

end
-- ==== Proof.Bridge.lean ====
/-
  The reference's result and the kernel program's result are one function of the eight arguments.

  The reference computes relu(((x·root_w + root_b) + agg) + bias) with agg the scatter-add, by destination, of the
  messages (x[src]·weight[r])·ew. Its message stage is `edgeMsg` and its node update is `rootCombine` (RefDense.lean), the
  sums associated in the same order as in the kernel's bodies, so no law of the extended reals is needed beyond
  re-indexing. Its bias rows are made by a broadcast along a new leading axis where the kernel's program reshapes: the
  same 1×128 row. What is left on both sides is the same gather of source rows and the same scatter-add into zeros,
  applied to equal operands.
-/
import proofs.«159718_j69647189672496_1_alg».proof.Proof.KernelResult
import proofs.«159718_j69647189672496_1_alg».proof.Proof.RefDense

noncomputable section

namespace Cert.ReferenceIdeal.Bridge

open Cert.ReferenceIdeal Cert.ReferenceIdeal.Gen Cert.ReferenceIdeal.Read
open Idealize.ShloMosaic Idealize.ShloMosaic.TcCoe Idealize.SL.Sem Idealize.ShloMosaic.StableHlo

/-- The reference's result term is the kernel program's `result` of the same arguments. -/
theorem result_eq (x0 : (⟨S50000x128, .f32⟩ : BufTy).Contents (Elt Ideal)) (x1 x2 : (⟨S8x64000, .i32⟩ : BufTy).Contents (Elt Ideal))
    (x3 : (⟨S8x64000, .f32⟩ : BufTy).Contents (Elt Ideal)) (x4 : (⟨S8x128x128, .f32⟩ : BufTy).Contents (Elt Ideal))
    (x5 : (⟨S128x128, .f32⟩ : BufTy).Contents (Elt Ideal)) (x6 x7 : (⟨S128, .f32⟩ : BufTy).Contents (Elt Ideal)) :
    val_main_v24 (F := Ideal) x0 x1 x2 x3 x4 x5 x6 x7 = Cert.KernelIdeal.Value.result x0 x1 x2 x3 x4 x5 x6 x7 := by
  rw [← val_main_v24_eq]
  unfold Cert.KernelIdeal.Value.result
  rw [Cert.ReferenceIdeal.Dense.msg_eq, Cert.ReferenceIdeal.Dense.root_eq,
    Cert.ReferenceIdeal.Dense.row_of_vector x6 Cert.KernelIdeal.Gen.shapeCasts_S128_S1x128,
    Cert.ReferenceIdeal.Dense.row_of_vector x7 Cert.KernelIdeal.Gen.shapeCasts_S128_S1x128]
  rfl

end Cert.ReferenceIdeal.Bridge

end
-- ==== Proof.lean ====
/-
  A relational graph layer: out = relu(((x·root_w + root_b) + agg) + bias), where agg sums into each destination node
  the messages (x[src]·weight[r])·ew of its incoming edges over the eight relations.

  The kernel's program computes the messages in one pipelined call (for each relation and each tile of 8000 edges: the
  gathered rows times the relation's weight matrix, scaled by the edge weights) and the node update in a second one (for
  each tile of 5000 nodes: the root product plus the root bias, plus the aggregate, plus the bias, rectified); the gather
  of source rows and the scatter-add by destination are host operations between them, the same ones the reference
  applies. At the exact instance a change of float format is the identity and a product into a zero accumulator is the
  plain sum, so each call's output array is the reference's stage index by index (`edgeMsg`, `rootCombine`), with the
  sums associated in the same order on both sides: the claim needs no law of the extended reals and never opens the
  precondition.

  The three frames: the two kernel programs' are the generated ones; the reference's is its generated run with the
  result dropped. The idealization rewrote nothing, so `preserves` is trivial. For `algebraic` both runs end with the
  result buffer at `Cert.KernelIdeal.Value.result` of the arguments (KernelValue.lean for the kernel's program, the
  reference's generated run and Bridge.lean for the reference).
-/
import proofs.«159718_j69647189672496_1_alg».proof.Defs
import proofs.«159718_j69647189672496_1_alg».proof.Proof.Gen.Kernel
import proofs.«159718_j69647189672496_1_alg».proof.Proof.Gen.Kernel.Frame
import proofs.«159718_j69647189672496_1_alg».proof.Proof.Gen.KernelIdeal
import proofs.«159718_j69647189672496_1_alg».proof.Proof.Gen.KernelIdeal.Frame
import proofs.«159718_j69647189672496_1_alg».proof.Proof.Gen.ReferenceIdeal
import proofs.«159718_j69647189672496_1_alg».proof.Proof.Gen.ReferenceIdeal.Run
import proofs.«159718_j69647189672496_1_alg».proof.Proof.Gen.Pre_finite_inputs
import proofs.«159718_j69647189672496_1_alg».proof.Proof.KernelValue
import proofs.«159718_j69647189672496_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result buffer at the same function of the
    arguments: the kernel's program by its run read back, the reference by its run and the bridge. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact (Cert.ReferenceIdeal.Read.val_main_v24_eq _ _ _ _ _ _ _ _).trans (Cert.ReferenceIdeal.Bridge.result_eq _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
